-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S16384x512 .f32) (main_arg1 : FVec F S2048x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S16384x512 : Shape := ⟨2, ![16384, 512]⟩
abbrev S2048x512 : Shape := ⟨2, ![2048, 512]⟩
abbrev S16384x2048 : Shape := ⟨2, ![16384, 2048]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S16384x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x512.size a
  hwx0_1 : ∀ i : grid0.Coords, EltTy.bits .f32 = 32 ∨ (Rect.block (s := S2048x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x2048.size a
  hwx0_2 : ∀ i : grid0.Coords, EltTy.bits .f32 = 32 ∨ (Rect.block (s := S16384x2048) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S_ : Shape := ⟨0, ![]⟩
abbrev S16384 : Shape := ⟨1, ![16384]⟩
abbrev S16384x1 : Shape := ⟨2, ![16384, 1]⟩
abbrev S2048 : Shape := ⟨1, ![2048]⟩
abbrev S16384x2048 : Shape := ⟨2, ![16384, 2048]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S16384x2048, .f32⟩
  | .hbm, ⟨10, _⟩ => ⟨S1x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S2048x512_S2048_d1 : S2048x512.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x512_S2048x512_S16384x2048_1_1_0_0_n_n_wf : DotDims.WF S16384x512 S2048x512 S16384x2048 [1] [1] [0] [0] [] []

variable [Facts₀]

def dot_S16384x512_S2048x512_S16384x2048_1_1_0_0_n_n : DotDims S16384x512 S2048x512 S16384x2048 where
  lhsContracting := [1]
  rhsContracting := [1]
  lhsNonContracting := [0]
  rhsNonContracting := [0]
  lhsBatch := []
  rhsBatch := []
  wf := dot_S16384x512_S2048x512_S16384x2048_1_1_0_0_n_n_wf

class Facts : Prop extends Facts₀ where

variable [Facts]
-- ==== Proof.Distance.lean ====
/-
  The score both programs compute, as one function of the two argument arrays over the extended reals.
  For `a : [R, K]` (points, one per row) and `b : [C, K]` (class means, one per row) the entry `(r, c)` is the negative
  Euclidean distance between row `r` of `a` and row `c` of `b`, computed from the two squared norms and the inner
  product:  −√ max(‖a_r‖² + ‖b_c‖² − 2·⟨a_r, b_c⟩, 0).
  The factor 2 is kept as the f32 word both programs carry; no property of it is used. An entry depends only on row `r`
  of `a` and row `c` of `b` (`score_congr`), which is why a tile of the result is the same function of the two row
  blocks the tile's rows and columns lie in.
-/
import Idealize.ShloMosaic.PureOps.Ideal.Laws
import Idealize.ShloMosaic.Lib.ValueIdx

noncomputable section

open scoped BigOperators

namespace Cert.NegDistance

open Idealize.ShloMosaic Idealize.ShloMosaic.ValueIdx

/-- The factor of the cross term: the f32 word of 2.0, never evaluated. -/
abbrev two : EReal := Ideal.ofBits .f32 0x40000000#32

/-- The squared norm of row `r`: the sum of the squares of its entries. -/
def sqNorm {R K : ℕ} (a : (⟨2, ![R, K]⟩ : Shape).Idx → EReal) (r : Fin R) : EReal :=
  ∑ k : Fin K, a (ix2 r k) * a (ix2 r k)

/-- The inner product of row `r` of `a` with row `c` of `b`. -/
def rowDot {R C K : ℕ} (a : (⟨2, ![R, K]⟩ : Shape).Idx → EReal) (b : (⟨2, ![C, K]⟩ : Shape).Idx → EReal)
    (r : Fin R) (c : Fin C) : EReal :=
  ∑ k : Fin K, a (ix2 r k) * b (ix2 c k)

/-- From the two squared norms and the inner product: −√ max(nx + nm − 2·cr, 0). -/
def score (nx nm cr : EReal) : EReal := -Ideal.sqrt (max (nx + nm - two * cr) 0)

/-- The whole result: entry `(r, c)` is the score of row `r` of `a` against row `c` of `b`. -/
def negDist {R C K : ℕ} (a : (⟨2, ![R, K]⟩ : Shape).Idx → EReal) (b : (⟨2, ![C, K]⟩ : Shape).Idx → EReal) :
    (⟨2, ![R, C]⟩ : Shape).Idx → EReal :=
  fun i => score (sqNorm a (i 0)) (sqNorm b (i 1)) (rowDot a b (i 0) (i 1))

theorem negDist_apply {R C K : ℕ} (a : (⟨2, ![R, K]⟩ : Shape).Idx → EReal) (b : (⟨2, ![C, K]⟩ : Shape).Idx → EReal)
    (r : Fin R) (c : Fin C) :
    negDist a b (ix2 r c) = score (sqNorm a r) (sqNorm b c) (rowDot a b r c) := rfl

/-- An entry depends only on the two rows it is about: if row `r` of `a` is row `r'` of `a'` and row `c` of `b` is row
    `c'` of `b'`, the scores agree. -/
theorem score_congr {R R' C C' K : ℕ} (a : (⟨2, ![R, K]⟩ : Shape).Idx → EReal) (a' : (⟨2, ![R', K]⟩ : Shape).Idx → EReal)
    (b : (⟨2, ![C, K]⟩ : Shape).Idx → EReal) (b' : (⟨2, ![C', K]⟩ : Shape).Idx → EReal)
    (r : Fin R) (r' : Fin R') (c : Fin C) (c' : Fin C')
    (ha : ∀ k : Fin K, a (ix2 r k) = a' (ix2 r' k)) (hb : ∀ k : Fin K, b (ix2 c k) = b' (ix2 c' k)) :
    score (sqNorm a r) (sqNorm b c) (rowDot a b r c) = score (sqNorm a' r') (sqNorm b' c') (rowDot a' b' r' c') := by
  unfold sqNorm rowDot
  simp only [ha, hb]

/-- A tile's entry is the whole array's entry: if row `r'` of a block `a'` is row `i 0` of `a`, and row `c'` of a block `b'`
    is row `i 1` of `b`, the score of the two block rows is entry `i` of the score array of `a` and `b`. -/
theorem negDist_of_rows {R C R' C' K : ℕ} (a' : (⟨2, ![R', K]⟩ : Shape).Idx → EReal) (b' : (⟨2, ![C', K]⟩ : Shape).Idx → EReal)
    (a : (⟨2, ![R, K]⟩ : Shape).Idx → EReal) (b : (⟨2, ![C, K]⟩ : Shape).Idx → EReal)
    (r' : Fin R') (c' : Fin C') (i : (⟨2, ![R, C]⟩ : Shape).Idx)
    (ha : ∀ k : Fin K, a' (ix2 r' k) = a (ix2 (i 0) k)) (hb : ∀ k : Fin K, b' (ix2 c' k) = b (ix2 (i 1) k)) :
    score (sqNorm a' r') (sqNorm b' c') (rowDot a' b' r' c') = negDist a b i :=
  score_congr a' a b' b r' (i 0) c' (i 1) ha hb

/-- Subtracting from the zero word is negation: how one program spells the final sign. -/
theorem zero_word_sub (y : EReal) : Ideal.ofBits .f32 0x00000000#32 - y = -y := by
  rw [Ideal.ofBits_zero_f32, zero_sub]

end Cert.NegDistance

end
-- ==== Proof.ReferenceDistance.lean ====
/-
  The reference computes the score. Read one operation at a time, entry `(r, c)` of its result is
  −√ max((0 + Σ_k x[r,k]²) + (0 + Σ_k means[c,k]²) − 2·Σ_k x[r,k]·means[c,k], 0): the two row sums start from the
  zero word, which adds nothing, and the layout steps between a row sum and the full array (a column, a row, their
  broadcasts) only carry the row index `r` or the column index `c` along. That is `negDist` of the two arguments.
-/
import proofs.«144370_j86431921865191_1_alg».proof.Proof.Gen.ReferenceIdeal.Read
import proofs.«144370_j86431921865191_1_alg».proof.Proof.Distance

noncomputable section

open scoped BigOperators

namespace Cert.ReferenceIdeal.Distance

open Cert.ReferenceIdeal Cert.ReferenceIdeal.Read Idealize.ShloMosaic Idealize.ShloMosaic.ValueIdx Cert.NegDistance

/-- The reference's last stage, as a function of the two arguments, is the score array. -/
theorem result_eq (x0 : (⟨S16384x512, .f32⟩ : BufTy).Contents (Elt Ideal)) (x1 : (⟨S2048x512, .f32⟩ : BufTy).Contents (Elt Ideal)) :
    val_main_v16 (F := Ideal) x0 x1 = negDist (R := 16384) (C := 2048) (K := 512) x0 x1 := by
  funext i
  obtain ⟨r, c, rfl⟩ : ∃ (r : Fin 16384) (c : Fin 2048), i = ix2 r c := ⟨i 0, i 1, eq_ix2 i⟩
  -- the row of `x` behind the first squared norm, the row of `means` behind the second, and the two rows of the product
  have e1 : ∀ k : Fin 512, idx_main_v1 (idx_main_v2 (idx_main_v7 (ix2 r c))) k = ix2 r k := fun k =>
    funext fun a => Fin.ext (by match a with | ⟨0, _⟩ => rfl | ⟨1, _⟩ => rfl)
  have e2 : ∀ k : Fin 512, idx_main_v4 (idx_main_v6 (idx_main_v8 (ix2 r c))) k = ix2 c k := fun k =>
    funext fun a => Fin.ext (by match a with | ⟨0, _⟩ => rfl | ⟨1, _⟩ => rfl)
  have e3 : ∀ k : Fin 512, lidx_main_v5 (ix2 r c) k = ix2 r k := fun k =>
    funext fun a => Fin.ext (by match a with | ⟨0, _⟩ => rfl | ⟨1, _⟩ => rfl)
  have e4 : ∀ k : Fin 512, ridx_main_v5 (ix2 r c) k = ix2 c k := fun k =>
    funext fun a => Fin.ext (by match a with | ⟨0, _⟩ => rfl | ⟨1, _⟩ => rfl)
  rw [val_main_v16_apply, val_main_v15_apply, val_main_v14_apply, val_main_v12_apply, val_main_v13_apply,
    val_main_cst_2_apply, val_main_v9_apply, val_main_v11_apply, val_main_v10_apply, val_main_cst_1_apply,
    val_main_v7_apply, val_main_v8_apply, val_main_v2_apply, val_main_v6_apply, val_main_v1_apply, val_main_v4_apply,
    val_main_v5_apply, val_main_cst_apply, val_main_cst_0_apply, negDist_apply]
  unfold score sqNorm rowDot
  simp only [val_main_v0_apply, val_main_v3_apply, e1, e2, e3, e4, Ideal.hostNegf_def, Ideal.negf_def,
    Ideal.hostUnary_sqrt_def, Ideal.maximumf_def, Ideal.subf_def, Ideal.addf_def, Ideal.mulf_def, Ideal.ofBits_def,
    Ideal.ofBits_zero_f32, zero_add]

end Cert.ReferenceIdeal.Distance

end
-- ==== Proof.LibKeepdims.lean ====
/-
  General lemmas for a row reduction kept as a column (`sum(axis = -1, keepdims = True)`), read at an index
  given by coordinates, at any extents:
  • a length-`a` vector cast to an `[a, 1]` column reads its entry (`shapeCast_a_a1_apply`);
  • an `[a, 1]` column broadcast along rows to `[a, b]` reads, at `(p, c)`, the column's entry `p`
    (`broadcastTo_a1_ab_apply`);
  • over the extended reals, the sum over the second axis of an `[a, n]` array, read at row `p`, is the sum over
    `k` of the entries `(p, k)` (`rowSum_apply`).
  Together with the library's transpose of a matrix and its broadcast of a `[1, b]` row these read every layout step
  between a row reduction and a full `[a, b]` tile.
-/
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- A vector of length `a` cast to an `[a, 1]` column reads, at `(i, u)`, the vector's entry `i`: both indices have
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals, a sum over the second axis of an `[a, n]` array into a length-`a` vector, started from the
    zero word, reads at row `p` the sum over `k` of the entries `(p, k)`. -/
theorem rowSum_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin n, src (ix2 p k) := by
  refine (Ideal.multiReduction_add_single src _ h hφ hacc (ix1 p)).trans ?_
  refine Finset.sum_congr rfl fun k _ => ?_
  exact congrArg src (funext fun d => Fin.ext (by match d with | ⟨0, _⟩ => rfl | ⟨1, _⟩ => rfl))

end Cert.Lib.Keepdims

end
-- ==== Proof.TileDistance.lean ====
/-
  One tile of the kernel. From a block `xb` of 1024 rows of the points and a block `mb` of 1024 rows of the means the
  body computes, at `(p, q)` of its 1024 × 1024 tile,
      0 − √ max((Σ_k xb[p,k]² + Σ_k mb[q,k]²) − 2·Σ_k xb[p,k]·mb[q,k], 0).
  The pieces: the row sums of the squares are kept as a column; the means' column is transposed into a row; column and
  row are broadcast over the tile; the product of the two blocks (narrowed to bf16 first, which changes nothing over the
  extended reals) accumulates into zero, so its entry `(p, q)` is the inner product of row `p` of `xb` with row `q` of
  `mb`. So the tile is the score array `negDist xb mb` of the two blocks (`tile_apply`).
-/
import proofs.«144370_j86431921865191_1_alg».proof.Proof.Gen.KernelIdeal.Skeleton
import proofs.«144370_j86431921865191_1_alg».proof.Proof.LibKeepdims
import proofs.«144370_j86431921865191_1_alg».proof.Proof.Distance
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx
open Cert.NegDistance Cert.Lib.Keepdims

/-! ## The product of the two blocks, read at an entry -/

/-- The left operand's row coordinate is the entry's row. -/
theorem lhs_axis0 (i : S1024x1024.Idx) (s : dot_S1024x512_S1024x512_S1024x1024_1_1_0_0_n_n.contr.Idx) :
    (dot_S1024x512_S1024x512_S1024x1024_1_1_0_0_n_n.lhsIdx i s 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
/-- The left operand's column coordinate is the summation index. -/
theorem lhs_axis1 (i : S1024x1024.Idx) (s : dot_S1024x512_S1024x512_S1024x1024_1_1_0_0_n_n.contr.Idx) :
    (dot_S1024x512_S1024x512_S1024x1024_1_1_0_0_n_n.lhsIdx i s 1).val = (s ⟨0, by decide⟩).val :=
  dot_S1024x512_S1024x512_S1024x1024_1_1_0_0_n_n.lhsIdx_val_of_single rfl i s
/-- The right operand's row coordinate is the entry's column: the product is against the transpose. -/
theorem rhs_axis0 (i : S1024x1024.Idx) (s : dot_S1024x512_S1024x512_S1024x1024_1_1_0_0_n_n.contr.Idx) :
    (dot_S1024x512_S1024x512_S1024x1024_1_1_0_0_n_n.rhsIdx i s 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
/-- The right operand's column coordinate is the summation index. -/
theorem rhs_axis1 (i : S1024x1024.Idx) (s : dot_S1024x512_S1024x512_S1024x1024_1_1_0_0_n_n.contr.Idx) :
    (dot_S1024x512_S1024x512_S1024x1024_1_1_0_0_n_n.rhsIdx i s 1).val = (s ⟨0, by decide⟩).val :=
  dot_S1024x512_S1024x512_S1024x1024_1_1_0_0_n_n.rhsIdx_val_of_single rfl i s

/-- Accumulated into zero, the product's entry `(p, q)` is the inner product of row `p` of the left block with row `q`
    of the right one. -/
theorem cross_apply (l r : FVec Ideal S1024x512 .bf16) (p q : Fin 1024) :
    matmul dot_S1024x512_S1024x512_S1024x1024_1_1_0_0_n_n none l r (constant (F := Ideal) S1024x1024 .f32 0x00000000#32) (ix2 p q)
      = ∑ k : Fin 512, l (ix2 p k) * r (ix2 q k) := by
  simp only [matmul]
  rw [Ideal.matmul_constant_zero_apply,
    ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q)
      ((contrEquiv1 dot_S1024x512_S1024x512_S1024x1024_1_1_0_0_n_n 512 rfl rfl).symm k) = ix2 p k :=
    funext fun a => Fin.ext (by
      match a with
      | ⟨0, _⟩ => exact lhs_axis0 _ _
      | ⟨1, _⟩ => exact (lhs_axis1 _ _).trans hk)
  have er : dot_S1024x512_S1024x512_S1024x1024_1_1_0_0_n_n.rhsIdx (ix2 p q)
      ((contrEquiv1 dot_S1024x512_S1024x512_S1024x1024_1_1_0_0_n_n 512 rfl rfl).symm k) = ix2 q k :=
    funext fun a => Fin.ext (by
      match a with
      | ⟨0, _⟩ => exact rhs_axis0 _ _
      | ⟨1, _⟩ => exact (rhs_axis1 _ _).trans hk)
  rw [el, er]

/-! ## The two squared norms, laid out over the tile -/

/-- The rows' squared norms, kept as a column and broadcast along the rows: entry `(p, q)` is the squared norm of
    row `p`. -/
theorem normColumn_apply (v : FVec Ideal S1024x512 .f32) (p q : Fin 1024) :
    broadcastTo S1024x1024 (shapeCast S1024x1 (multiReduction .add [1] S1024 (mulf v v) 0x00000000#32
        reduces_S1024x512_S1024 (.inl rfl) rfl) shapeCasts_S1024_S1024x1) broadcasts_S1024x1_S1024x1024 (ix2 p q)
      = sqNorm v p := by
  refine (broadcastTo_a1_ab_apply _ _ p q).trans ?_
  refine (shapeCast_a_a1_apply _ _ p 0).trans ?_
  exact rowSum_apply _ _ _ _ p

/-- The rows' squared norms, kept as a column, transposed into a row and broadcast down the columns: entry `(p, q)`
    is the squared norm of row `q`. -/
theorem normRow_apply (v : FVec Ideal S1024x512 .f32) (p q : Fin 1024) :
    broadcastTo S1024x1024 (transpose S1x1024 [1, 0] (shapeCast S1024x1 (multiReduction .add [1] S1024 (mulf v v) 0x00000000#32
        reduces_S1024x512_S1024 (.inl rfl) rfl) shapeCasts_S1024_S1024x1) transposes_S1024x1_p1_0_S1x1024)
        broadcasts_S1x1024_S1024x1024 (ix2 p q)
      = sqNorm v q := by
  refine (broadcastTo_1b_ab_apply _ _ p q).trans ?_
  refine (transpose_ix2_apply _ _ (0 : Fin 1) q).trans ?_
  refine (shapeCast_a_a1_apply _ _ q 0).trans ?_
  exact rowSum_apply _ _ _ _ q

/-! ## The tile -/

/-- A square root of a vector, read at an index, is the extended reals' square root of the entry. -/
theorem sqrt_apply {s : Shape} (a : FVec Ideal s .f32) (i : s.Idx) : sqrt a i = Ideal.sqrt (a i) := rfl

/-- What the body stores, at `(p, q)`: the score of row `p` of the points' block against row `q` of the means' block. -/
theorem tile_apply (xb mb : Vec Ideal S1024x512 .f32) (p q : Fin 1024) :
    k0_pay1 (F := Ideal) xb mb (ix2 p q) = score (sqNorm xb p) (sqNorm mb q) (rowDot xb mb p q) := by
  unfold k0_pay1
  dsimp only
  simp only [subf_apply, sqrt_apply, maximumf_apply, addf_apply, mulf_apply, broadcast_apply]
  rw [normColumn_apply, normRow_apply, cross_apply]
  simp only [Ideal.ofBits_def]
  rw [zero_word_sub, Ideal.ofBits_zero_f32]
  rfl

end Cert.KernelIdeal.Tile

end
-- ==== Proof.ScoreArray.lean ====
/-
  From tiles to the array. The result is cut into 16 × 2 tiles of 1024 × 1024; the grid point that owns tile
  `(bi, bj)` stages rows `1024·bi …` of the points and rows `1024·bj …` of the means, both at full width. A tile's
  entry `(p, q)` therefore sits at `(1024·bi + p, 1024·bj + q)` of the array, row `p` of the points' block is row
  `1024·bi + p` of the points, and row `q` of the means' block is row `1024·bj + q` of the means. As a score depends
  only on those two rows, what a point writes back is its tile of the score array of the two whole arguments
  (`writes_tile`); every entry lies in the tile of the point with `bi = i₀ / 1024`, `bj = i₁ / 1024` (`covered`); so
  after the run the result array is the score array (`result_scores`, `run`).
-/
import proofs.«144370_j86431921865191_1_alg».proof.Proof.Gen.KernelIdeal.Value
import proofs.«144370_j86431921865191_1_alg».proof.Proof.TileDistance
import Idealize.ShloMosaic.Lib.Pipeline.Value

noncomputable section

namespace Cert.KernelIdeal.Scores

open Cert.KernelIdeal Cert.KernelIdeal.Gen Cert.KernelIdeal.Value Idealize.ShloMosaic Idealize.ShloMosaic.TcCoe Idealize.SL.Sem
open Idealize.ShloMosaic.ValueIdx Cert.NegDistance
open Idealize.ShloMosaic.Pipeline (Dat)

variable (m : (ℓ : Loc nD τ sig) → Buf (Elt Ideal) ℓ) (ρ : Dev nD → PrngReg)

/-- The body reads and writes its buffers from their first entry. -/
theorem origin : (![0, 0] : Fin 2 → Nat) = fun _ => 0 := funext fun a => by fin_cases a <;> rfl

/-- Where the blocks sit at a grid point (decided over the 32 points): the points' block shares the tile's block row,
    the means' block row is the tile's block column, and neither input is cut along its second axis. -/
theorem placement : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0 :=
  (by decide +kernel : ∀ t : Fin grid0.N, _)

/-- Each of the 16 × 2 tiles is some grid point's. -/
theorem every_tile : ∀ (bi : Fin 16) (bj : Fin 2), ∃ t : Fin cfg0.N, win0_2.index t = ![bi.val, bj.val] :=
  (by decide +kernel : ∀ (bi : Fin 16) (bj : Fin 2), ∃ t : Fin grid0.N, win0_2.index t = ![bi.val, bj.val])

/-- The score array of the two arguments as the region finds them. -/
abbrev scores (c : Dev nD) : Buf (Elt Ideal) ((c : Thread nD τ).loc main_v0) :=
  negDist (R := 16384) (C := 2048) (K := 512) (V m c main_arg0) (V m c main_arg1)

/-- What a grid point writes back is its tile of the score array. -/
theorem writes_tile (c : Dev nD) (t : Fin cfg0.N) :
    (dats m 0 c).flushed 2 t = ((cfg0.win 2).blk t).view.read (Elt Ideal) (scores m c) := by
  rw [flushed2]
  unfold out0_2
  rw [View.canon_unit_zero origin]
  simp only [View.ld_unit_zero (S := S1024x512) origin]
  obtain ⟨e0, e1, e2, e3⟩ := placement t
  funext j
  obtain ⟨p, q, rfl⟩ : ∃ (p q : Fin 1024), j = ix2 p q := ⟨j 0, j 1, eq_ix2 (n0 := 1024) (n1 := 1024) j⟩
  show k0_pay1 (F := Ideal) (iblk m c 0 t) (iblk m c 1 t) (ix2 p q)
    = negDist (R := 16384) (C := 2048) (K := 512) (V m c main_arg0) (V m c main_arg1) (((cfg0.win 2).blk t).view.emb (ix2 p q))
  refine (Tile.tile_apply (iblk m c 0 t) (iblk m c 1 t) p q).trans ?_
  refine negDist_of_rows (R := 16384) (C := 2048) (R' := 1024) (C' := 1024) (K := 512) (iblk m c 0 t) (iblk m c 1 t)
    (V m c main_arg0) (V m c main_arg1) p q (((cfg0.win 2).blk t).view.emb (ix2 p q)) (fun k => ?_) (fun k => ?_)
  · -- row `p` of the points' block is the points' row under the tile's row `p`
    show V m c main_arg0 (((cfg0.win 0).blk t).view.emb (ix2 p k))
      = V m c main_arg0 (ix2 ((((cfg0.win 2).blk t).view.emb (ix2 p q)) 0) k)
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 512 + 1 * k.val = k.val
      omega
  · -- row `q` of the means' block is the means' row under the tile's column `q`
    show V m c main_arg1 (((cfg0.win 1).blk t).view.emb (ix2 q k))
      = V m c main_arg1 (ix2 ((((cfg0.win 2).blk t).view.emb (ix2 p q)) 1) k)
    refine congrArg (V m c main_arg1) (funext fun a => Fin.ext ?_)
    match a with
    | ⟨0, _⟩ =>
      show win0_1.index t (0 : Fin 2) * 1024 + 1 * q.val = win0_2.index t (1 : Fin 2) * 1024 + 1 * q.val
      omega
    | ⟨1, _⟩ =>
      show win0_1.index t (1 : Fin 2) * 512 + 1 * k.val = k.val
      omega

/-- An entry of the array is in a point's tile iff each coordinate is in the tile's range on its axis. -/
theorem mem_tile (t : Fin cfg0.N) (i : S16384x2048.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every entry lies in the tile of the point whose block row and column are the entry's coordinates divided by 1024. -/
theorem covered (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  obtain ⟨t, ht⟩ := every_tile ⟨(i 0).val / 1024, by omega⟩ ⟨(i 1).val / 1024, by omega⟩
  have b0 : win0_2.index t (0 : Fin 2) = (i 0).val / 1024 := congrFun ht 0
  have b1 : win0_2.index t (1 : Fin 2) = (i 1).val / 1024 := congrFun ht 1
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- After the run the result array is the score array of the two arguments. -/
theorem result_scores (c : Dev nD) : (dats m 0 c).arrAt 2 cfg0.N = scores m c :=
  (dats m 0 c).arrAt_eq_of_cover 2 (scores m c) (fun t _ => writes_tile m c t) covered

/-- The kernel's run, read: it ends with the result array at the score array of the arguments as launched, the
    arguments unchanged. -/
theorem run : θ_run defs (onTc (τ := τ) (main (F := Ideal))) ⟨m, fun _ => 0, ρ⟩ fun r => ∀ c : Dev nD,
      r.2.mem ((c : Thread nD τ).loc main_v0)
        = negDist (R := 16384) (C := 2048) (K := 512) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_scores m c), (h c).2⟩) (run_blocks m ρ)

end Cert.KernelIdeal.Scores

end
-- ==== Proof.lean ====
/-
  The kernel scores 16384 points (rows of `x`, 512 features) against 2048 class means (rows of `means`) by negative
  Euclidean distance, computed as −√ max(‖x_r‖² + ‖m_c‖² − 2·⟨x_r, m_c⟩, 0): one 1024 × 1024 tile of the result per grid
  point, from the 1024 points' rows and the 1024 means' rows the tile spans; the cross term is a product of the two
  blocks narrowed to bf16 and accumulated into zero. The reference computes the same expression on the whole arrays.
  Over the extended reals a change of format is the identity and a product accumulated into zero is the plain sum, so
  both programs end with the result array equal to ONE function of the two arguments, `NegDistance.negDist`
  (Proof/Distance.lean): the reference by reading its operations one at a time (Proof/ReferenceDistance.lean); the
  kernel because each tile is that function of its two row blocks (Proof/TileDistance.lean), an entry depends only on
  the two rows it is about, and the tiles fill the array (Proof/ScoreArray.lean). The only differences between the two
  texts are that the kernel writes the final sign as `0 − y` where the reference negates, and that the reference's two
  row sums start from an explicit zero: neither needs the inputs to be finite, and the precondition is never opened.
  The two kernel programs' frames are the generated ones; the reference's frame is its run with the result dropped;
  the idealization rewrote nothing, so `preserves` asks nothing.
-/
import proofs.«144370_j86431921865191_1_alg».proof.Defs
import proofs.«144370_j86431921865191_1_alg».proof.Proof.Gen.Kernel
import proofs.«144370_j86431921865191_1_alg».proof.Proof.Gen.Kernel.Skeleton
import proofs.«144370_j86431921865191_1_alg».proof.Proof.Gen.Kernel.Launch
import proofs.«144370_j86431921865191_1_alg».proof.Proof.Gen.Kernel.Points
import proofs.«144370_j86431921865191_1_alg».proof.Proof.Gen.Kernel.Frame
import proofs.«144370_j86431921865191_1_alg».proof.Proof.Gen.KernelIdeal
import proofs.«144370_j86431921865191_1_alg».proof.Proof.Gen.KernelIdeal.Skeleton
import proofs.«144370_j86431921865191_1_alg».proof.Proof.Gen.KernelIdeal.Launch
import proofs.«144370_j86431921865191_1_alg».proof.Proof.Gen.KernelIdeal.Points
import proofs.«144370_j86431921865191_1_alg».proof.Proof.Gen.KernelIdeal.Frame
import proofs.«144370_j86431921865191_1_alg».proof.Proof.Gen.ReferenceIdeal
import proofs.«144370_j86431921865191_1_alg».proof.Proof.Gen.Pre_finite_inputs
import proofs.«144370_j86431921865191_1_alg».proof.Proof.Gen.KernelIdeal.Value
import proofs.«144370_j86431921865191_1_alg».proof.Proof.Gen.ReferenceIdeal.Run
import proofs.«144370_j86431921865191_1_alg».proof.Proof.Gen.ReferenceIdeal.Read
import Idealize.ShloMosaic.Adequacy
import Idealize.ShloMosaic.Init
import proofs.«144370_j86431921865191_1_alg».proof.Proof.ReferenceDistance
import proofs.«144370_j86431921865191_1_alg».proof.Proof.ScoreArray

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the score array of the
    arguments. -/
theorem algebraic : Cert.algebraic_KernelIdeal_ReferenceIdeal := by
  intro m ρ m' ρ' _ hagree
  refine ⟨_, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Distance.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
